-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S25165824 : Shape := ⟨1, ![25165824]⟩
abbrev S393216 : Shape := ⟨1, ![393216]⟩
abbrev S12288 : Shape := ⟨1, ![12288]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S393216 : S_.BroadcastsInDim S393216 (![] : Fin 0 → Fin S393216.rank)
  reducesTo_S393216_S_d0 : S393216.ReducesTo [0] S_
  bcast_S_S12288 : S_.BroadcastsInDim S12288 (![] : Fin 0 → Fin S12288.rank)
  reducesTo_S12288_S_d0 : S12288.ReducesTo [0] S_

variable [Facts]

def fn_part1 {F : FTy → Type} [FloatOps F] (main_v13 : IVec S_ 1) (main_v16 : IVec S12288 1) : IVec S_ 1 :=
  let main_c_5 : IVec S_ 1 := constantI S_ 1 1#1
  let main_v17 : IVec S_ 1 := (fun x v => Host.reduce IntOp.andi x v reducesTo_S12288_S_d0 h_S_) main_v16 main_c_5
  let main_v18 : IVec S_ 1 := andi main_v13 main_v17
  main_v18

def fn {F : FTy → Type} [FloatOps F] (main_arg0 : FVec F S2048x4096 .f32) (main_arg1 : IVec S25165824 32) (main_arg2 : FVec F S393216 .f32) (main_arg3 : FVec F S393216 .f32) (main_arg4 : FVec F S12288 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S393216 .f32 := Host.absf main_arg2
  let main_cst_0 : FVec F S_ .f32 := constant S_ .f32 0x7F800000#32
  let main_v5 : FVec F S393216 .f32 := broadcastInDim S393216 ![] bcast_S_S393216 main_cst_0
  let main_v6 : IVec S393216 1 := cmpf .olt main_v4 main_v5
  let main_c_1 : IVec S_ 1 := constantI S_ 1 1#1
  let main_v7 : IVec S_ 1 := (fun x v => Host.reduce IntOp.andi x v reducesTo_S393216_S_d0 h_S_) main_v6 main_c_1
  let main_v8 : IVec S_ 1 := andi main_v3 main_v7
  let main_v9 : FVec F S393216 .f32 := Host.absf main_arg3
  let main_cst_2 : FVec F S_ .f32 := constant S_ .f32 0x7F800000#32
  let main_v10 : FVec F S393216 .f32 := broadcastInDim S393216 ![] bcast_S_S393216 main_cst_2
  let main_v11 : IVec S393216 1 := cmpf .olt main_v9 main_v10
  let main_c_3 : IVec S_ 1 := constantI S_ 1 1#1
  let main_v12 : IVec S_ 1 := (fun x v => Host.reduce IntOp.andi x v reducesTo_S393216_S_d0 h_S_) main_v11 main_c_3
  let main_v13 : IVec S_ 1 := andi main_v8 main_v12
  let main_v14 : FVec F S12288 .f32 := Host.absf main_arg4
  let main_cst_4 : FVec F S_ .f32 := constant S_ .f32 0x7F800000#32
  let main_v15 : FVec F S12288 .f32 := broadcastInDim S12288 ![] bcast_S_S12288 main_cst_4
  let main_v16 : IVec S12288 1 := cmpf .olt main_v14 main_v15
  fn_part1 (F := F) main_v13 main_v16
-- ==== Kernel.lean ====
abbrev S2048x4096 : Shape := ⟨2, ![2048, 4096]⟩
abbrev S25165824 : Shape := ⟨1, ![25165824]⟩
abbrev S393216 : Shape := ⟨1, ![393216]⟩
abbrev S12288 : Shape := ⟨1, ![12288]⟩
abbrev S12288x2048 : Shape := ⟨2, ![12288, 2048]⟩
abbrev S12288x32 : Shape := ⟨2, ![12288, 32]⟩
abbrev S1x12288 : Shape := ⟨2, ![1, 12288]⟩
abbrev S12288x32x64 : Shape := ⟨3, ![12288, 32, 64]⟩
abbrev S2048x2048x2 : Shape := ⟨3, ![2048, 2048, 2]⟩
abbrev S2048x2048x1 : Shape := ⟨3, ![2048, 2048, 1]⟩
abbrev S2048x2048 : Shape := ⟨2, ![2048, 2048]⟩
abbrev S2048x12288 : Shape := ⟨2, ![2048, 12288]⟩
abbrev S256x2048 : Shape := ⟨2, ![256, 2048]⟩
abbrev S1x256 : Shape := ⟨2, ![1, 256]⟩
abbrev S2048x256 : Shape := ⟨2, ![2048, 256]⟩

abbrev nBuf : Space → Nat
  | .hbm => 22
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S25165824, .i32⟩
  | .hbm, ⟨2, _⟩ => ⟨S393216, .f32⟩
  | .hbm, ⟨3, _⟩ => ⟨S393216, .f32⟩
  | .hbm, ⟨4, _⟩ => ⟨S12288, .f32⟩
  | .hbm, ⟨5, _⟩ => ⟨S12288x2048, .i32⟩
  | .hbm, ⟨6, _⟩ => ⟨S12288x32, .f32⟩
  | .hbm, ⟨7, _⟩ => ⟨S12288x32, .f32⟩
  | .hbm, ⟨8, _⟩ => ⟨S1x12288, .f32⟩
  | .hbm, ⟨9, _⟩ => ⟨S12288x32x64, .f32⟩
  | .hbm, ⟨10, _⟩ => ⟨S12288x2048, .f32⟩
  | .hbm, ⟨11, _⟩ => ⟨S12288x2048, .bf16⟩
  | .hbm, ⟨12, _⟩ => ⟨S12288x32x64, .f32⟩
  | .hbm, ⟨13, _⟩ => ⟨S12288x2048, .f32⟩
  | .hbm, ⟨14, _⟩ => ⟨S12288x2048, .bf16⟩
  | .hbm, ⟨15, _⟩ => ⟨S2048x4096, .bf16⟩
  | .hbm, ⟨16, _⟩ => ⟨S2048x2048x2, .bf16⟩
  | .hbm, ⟨17, _⟩ => ⟨S2048x2048x1, .bf16⟩
  | .hbm, ⟨18, _⟩ => ⟨S2048x2048, .bf16⟩
  | .hbm, ⟨19, _⟩ => ⟨S2048x2048x1, .bf16⟩
  | .hbm, ⟨20, _⟩ => ⟨S2048x2048, .bf16⟩
  | .hbm, ⟨21, _⟩ => ⟨S2048x12288, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .i32⟩
  | .local _ .vmem, ⟨3, _⟩ => ⟨S256x2048, .i32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S25165824_S12288x2048 : S25165824.ShapeCasts S12288x2048
  shapeCasts_S393216_S12288x32 : S393216.ShapeCasts S12288x32
  shapeCasts_S12288_S1x12288 : S12288.ShapeCasts S1x12288
  bcast_S12288x32_S12288x32x64_0_1 : S12288x32.BroadcastsInDim S12288x32x64 (![0, 1] : Fin 2 → Fin S12288x32x64.rank)
  shapeCasts_S12288x32x64_S12288x2048 : S12288x32x64.ShapeCasts S12288x2048
  bitsLt_bf16_f32 : FTy.bits .bf16 < FTy.bits .f32
  shapeCasts_S2048x4096_S2048x2048x2 : S2048x4096.ShapeCasts S2048x2048x2
  slices_S2048x2048x2_S2048x2048x1_0_0_0 : S2048x2048x2.Slices ![0, 0, 0] S2048x2048x1
  shapeCasts_S2048x2048x1_S2048x2048 : S2048x2048x1.ShapeCasts S2048x2048
  slices_S2048x2048x2_S2048x2048x1_0_0_1 : S2048x2048x2.Slices ![0, 0, 1] S2048x2048x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S12288x2048.size a
  hwx0_2 : ∀ i : grid0.Coords, EltTy.bits .i32 = 32 ∨ (Rect.block (s := S12288x2048) S256x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S12288x2048.size a
  hwx0_3 : ∀ i : grid0.Coords, EltTy.bits .bf16 = 32 ∨ (Rect.block (s := S12288x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S12288x2048.size a
  hwx0_4 : ∀ i : grid0.Coords, EltTy.bits .bf16 = 32 ∨ (Rect.block (s := S12288x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x12288.size a
  hwx0_5 : ∀ i : grid0.Coords, EltTy.bits .f32 = 32 ∨ (Rect.block (s := S1x12288) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x12288.size a
  hwx0_6 : ∀ i : grid0.Coords, EltTy.bits .f32 = 32 ∨ (Rect.block (s := S2048x12288) S2048x256.size (cc0_transform_6 i) (hinb0_6 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v13) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S25165824 : Shape := ⟨1, ![25165824]⟩
abbrev S393216 : Shape := ⟨1, ![393216]⟩
abbrev S12288 : Shape := ⟨1, ![12288]⟩
abbrev S_ : Shape := ⟨0, ![]⟩
abbrev S25165824x1 : Shape := ⟨2, ![25165824, 1]⟩
abbrev S25165824x2 : Shape := ⟨2, ![25165824, 2]⟩
abbrev S50331648 : Shape := ⟨1, ![50331648]⟩
abbrev S393216x128 : Shape := ⟨2, ![393216, 128]⟩
abbrev S393216x1 : Shape := ⟨2, ![393216, 1]⟩
abbrev S12288x4096 : Shape := ⟨2, ![12288, 4096]⟩
abbrev S4096x12288 : Shape := ⟨2, ![4096, 12288]⟩
abbrev S2048x12288 : Shape := ⟨2, ![2048, 12288]⟩
abbrev S1x12288 : Shape := ⟨2, ![1, 12288]⟩

abbrev nBuf : Space → Nat
  | .hbm => 32
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S25165824, .i32⟩
  | .hbm, ⟨2, _⟩ => ⟨S393216, .f32⟩
  | .hbm, ⟨3, _⟩ => ⟨S393216, .f32⟩
  | .hbm, ⟨4, _⟩ => ⟨S12288, .f32⟩
  | .hbm, ⟨5, _⟩ => ⟨S_, .i32⟩
  | .hbm, ⟨6, _⟩ => ⟨S25165824, .i32⟩
  | .hbm, ⟨7, _⟩ => ⟨S25165824, .i32⟩
  | .hbm, ⟨8, _⟩ => ⟨S_, .i32⟩
  | .hbm, ⟨9, _⟩ => ⟨S25165824, .i32⟩
  | .hbm, ⟨10, _⟩ => ⟨S25165824, .i32⟩
  | .hbm, ⟨11, _⟩ => ⟨S_, .i32⟩
  | .hbm, ⟨12, _⟩ => ⟨S25165824, .i32⟩
  | .hbm, ⟨13, _⟩ => ⟨S25165824, .i32⟩
  | .hbm, ⟨14, _⟩ => ⟨S25165824x1, .i32⟩
  | .hbm, ⟨15, _⟩ => ⟨S25165824x1, .i32⟩
  | .hbm, ⟨16, _⟩ => ⟨S25165824x2, .i32⟩
  | .hbm, ⟨17, _⟩ => ⟨S50331648, .i32⟩
  | .hbm, ⟨18, _⟩ => ⟨S393216x128, .i32⟩
  | .hbm, ⟨19, _⟩ => ⟨S393216x128, .f32⟩
  | .hbm, ⟨20, _⟩ => ⟨S393216x1, .f32⟩
  | .hbm, ⟨21, _⟩ => ⟨S393216x128, .f32⟩
  | .hbm, ⟨22, _⟩ => ⟨S393216x128, .f32⟩
  | .hbm, ⟨23, _⟩ => ⟨S393216x1, .f32⟩
  | .hbm, ⟨24, _⟩ => ⟨S393216x128, .f32⟩
  | .hbm, ⟨25, _⟩ => ⟨S393216x128, .f32⟩
  | .hbm, ⟨26, _⟩ => ⟨S12288x4096, .f32⟩
  | .hbm, ⟨27, _⟩ => ⟨S4096x12288, .f32⟩
  | .hbm, ⟨28, _⟩ => ⟨S2048x12288, .f32⟩
  | .hbm, ⟨29, _⟩ => ⟨S1x12288, .f32⟩
  | .hbm, ⟨30, _⟩ => ⟨S2048x12288, .f32⟩
  | .hbm, ⟨31, _⟩ => ⟨S2048x12288, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S25165824 : S_.BroadcastsInDim S25165824 (![] : Fin 0 → Fin S25165824.rank)
  bcast_S25165824_S25165824x1_0 : S25165824.BroadcastsInDim S25165824x1 (![0] : Fin 1 → Fin S25165824x1.rank)
  concatenates_S25165824x1_S25165824x1_S25165824x2_d1 : Shape.Concatenates [S25165824x1, S25165824x1] S25165824x2 1
  shapeCasts_S25165824x2_S50331648 : S25165824x2.ShapeCasts S50331648
  shapeCasts_S50331648_S393216x128 : S50331648.ShapeCasts S393216x128
  bcast_S393216_S393216x1_0 : S393216.BroadcastsInDim S393216x1 (![0] : Fin 1 → Fin S393216x1.rank)
  bcast_S393216x1_S393216x128_0_1 : S393216x1.BroadcastsInDim S393216x128 (![0, 1] : Fin 2 → Fin S393216x128.rank)
  shapeCasts_S393216x128_S12288x4096 : S393216x128.ShapeCasts S12288x4096
  transposes_S12288x4096_S4096x12288_1_0 : S12288x4096.Transposes [1, 0] S4096x12288
  bcast_S12288_S1x12288_1 : S12288.BroadcastsInDim S1x12288 (![1] : Fin 1 → Fin S1x12288.rank)
  bcast_S1x12288_S2048x12288_0_1 : S1x12288.BroadcastsInDim S2048x12288 (![0, 1] : Fin 2 → Fin S2048x12288.rank)
  dot_S2048x4096_S4096x12288_S2048x12288_1_0_0_1_n_n_wf : DotDims.WF S2048x4096 S4096x12288 S2048x12288 [1] [0] [0] [1] [] []

variable [Facts₀]

def dot_S2048x4096_S4096x12288_S2048x12288_1_0_0_1_n_n : DotDims S2048x4096 S4096x12288 S2048x12288 where
  lhsContracting := [1]
  rhsContracting := [0]
  lhsNonContracting := [0]
  rhsNonContracting := [1]
  lhsBatch := []
  rhsBatch := []
  wf := dot_S2048x4096_S4096x12288_S2048x12288_1_0_0_1_n_n_wf

class Facts : Prop extends Facts₀ where

variable [Facts]
-- ==== Proof.Spec.lean ====
/-
  The mathematics of a 4-bit block-quantized linear layer, independent of either program.

  A packed word carries two 4-bit fields: the HIGH field `(w >> 4) & 15` and the LOW field `w & 15`. Row `o` of the
  weight matrix `W : [12288, 4096]` is stored in the 2048 consecutive words `p[o·2048 + i]`, `i < 2048`; word `i` of the
  row holds column `2i` in its high field and column `2i + 1` in its low field. Columns are quantized in groups of 128:
  column `c` of row `o` belongs to group `o·32 + c / 128`, and both columns `2i`, `2i + 1` of one word lie in group
  `o·32 + i / 64`. The dequantized entry is `field · scale[group] + zero[group]`, and the layer is

      y[t, o] = Σ_c x[t, c] · W[o, c] + bias[o].

  `linear` below writes that sum as its even columns plus its odd columns (two sums over the 2048 words of the row);
  `sum_even_odd` is the law that joins this with one sum over all 4096 columns: a finite sum in a commutative monoid
  may be re-indexed along the bijection (i, parity) ↦ 2i + parity. Nothing here needs the entries to be finite:
  only commutativity and associativity of addition on the extended reals are used.
-/
import Idealize.ShloMosaic.PureOps.Ideal
import Idealize.ShloMosaic.Lib.ValueIdx

noncomputable section

namespace Cert.NibbleLinear

open Idealize.ShloMosaic Idealize.ShloMosaic.ValueIdx

/-! ## Shapes of the five arguments and of the result -/

abbrev SX : Shape := ⟨2, ![2048, 4096]⟩
abbrev SP : Shape := ⟨1, ![25165824]⟩
abbrev SQ : Shape := ⟨1, ![393216]⟩
abbrev SB : Shape := ⟨1, ![12288]⟩
abbrev SY : Shape := ⟨2, ![2048, 12288]⟩

/-! ## Where word `i` of weight row `o` lives, and which columns and group it serves -/

/-- The even column `2i` that word `i`'s high field holds. -/
def evenCol (i : Fin 2048) : Fin 4096 := ⟨2 * i.val, by have := i.isLt; omega⟩
/-- The odd column `2i + 1` that word `i`'s low field holds. -/
def oddCol (i : Fin 2048) : Fin 4096 := ⟨2 * i.val + 1, by have := i.isLt; omega⟩
/-- Word `i` of row `o` in the flat packed array. -/
def wordAt (o : Fin 12288) (i : Fin 2048) : Fin 25165824 := ⟨o.val * 2048 + i.val, by have := o.isLt; have := i.isLt; omega⟩
/-- The quantization group of both columns of word `i` of row `o`. -/
def groupAt (o : Fin 12288) (i : Fin 2048) : Fin 393216 := ⟨o.val * 32 + i.val / 64, by have := o.isLt; have := i.isLt; omega⟩

theorem evenCol_val (i : Fin 2048) : (evenCol i).val = 2 * i.val := rfl
theorem oddCol_val (i : Fin 2048) : (oddCol i).val = 2 * i.val + 1 := rfl
theorem wordAt_val (o : Fin 12288) (i : Fin 2048) : (wordAt o i).val = o.val * 2048 + i.val := rfl
theorem groupAt_val (o : Fin 12288) (i : Fin 2048) : (groupAt o i).val = o.val * 32 + i.val / 64 := rfl

/-! ## The two 4-bit fields of a word, as numbers -/

/-- The high field `(w >> 4) & 15` (arithmetic shift), read as a signed integer, as an extended real. -/
def hiField (w : BitVec 32) : EReal := (((IntOp.andi (IntOp.shrsi .vector w 4#32) 15#32).toInt : ℝ) : EReal)
/-- The low field `w & 15`. -/
def loField (w : BitVec 32) : EReal := (((IntOp.andi w 15#32).toInt : ℝ) : EReal)

/-! ## The dequantized weights and the layer -/

/-- `W[o, 2i]`: the high field of word `i` of row `o`, scaled and shifted by its group's parameters. -/
def weightEven (p : SP.Idx → BitVec 32) (s z : SQ.Idx → EReal) (o : Fin 12288) (i : Fin 2048) : EReal :=
  hiField (p (ix1 (wordAt o i))) * s (ix1 (groupAt o i)) + z (ix1 (groupAt o i))
/-- `W[o, 2i + 1]`: the low field of the same word, same group. -/
def weightOdd (p : SP.Idx → BitVec 32) (s z : SQ.Idx → EReal) (o : Fin 12288) (i : Fin 2048) : EReal :=
  loField (p (ix1 (wordAt o i))) * s (ix1 (groupAt o i)) + z (ix1 (groupAt o i))

/-- The layer's result at token `t`, output channel `o`: the even columns' products, plus the odd columns', plus the bias. -/
def linearAt (x : SX.Idx → EReal) (p : SP.Idx → BitVec 32) (s z : SQ.Idx → EReal) (b : SB.Idx → EReal)
    (t : Fin 2048) (o : Fin 12288) : EReal :=
  (∑ i : Fin 2048, x (ix2 t (evenCol i)) * weightEven p s z o i
    + ∑ i : Fin 2048, x (ix2 t (oddCol i)) * weightOdd p s z o i)
  + b (ix1 o)

/-- The layer's result as an array. -/
def linear (x : SX.Idx → EReal) (p : SP.Idx → BitVec 32) (s z : SQ.Idx → EReal) (b : SB.Idx → EReal) : SY.Idx → EReal :=
  fun j => linearAt x p s z b (j 0) (j 1)

theorem linear_apply (x : SX.Idx → EReal) (p : SP.Idx → BitVec 32) (s z : SQ.Idx → EReal) (b : SB.Idx → EReal)
    (t : Fin 2048) (o : Fin 12288) : linear x p s z b (ix2 t o) = linearAt x p s z b t o := rfl

/-! ## A sum over 4096 columns is its even terms plus its odd terms -/

/-- (word, parity) ↦ column `2·word + parity`, a bijection of `2048 × 2` with the 4096 columns. -/
def colEquiv : Fin 2048 × Fin 2 ≃ Fin 4096 where
  toFun q := ⟨2 * q.1.val + q.2.val, by have := q.1.isLt; have := q.2.isLt; omega⟩
  invFun k := (⟨k.val / 2, by have := k.isLt; omega⟩, ⟨k.val % 2, by omega⟩)
  left_inv q := by
    have h1 := q.1.isLt; have h2 := q.2.isLt
    refine Prod.ext (Fin.ext ?_) (Fin.ext ?_)
    · show (2 * q.1.val + q.2.val) / 2 = q.1.val; omega
    · show (2 * q.1.val + q.2.val) % 2 = q.2.val; omega
  right_inv k := by
    refine Fin.ext ?_
    show 2 * (k.val / 2) + k.val % 2 = k.val; omega

theorem colEquiv_zero (i : Fin 2048) : colEquiv (i, 0) = evenCol i := Fin.ext (by show 2 * i.val + 0 = 2 * i.val; omega)
theorem colEquiv_one (i : Fin 2048) : colEquiv (i, 1) = oddCol i := Fin.ext (by show 2 * i.val + 1 = 2 * i.val + 1; rfl)

/-- Re-indexing a sum over the columns by (word, parity) and summing the parity out. -/
theorem sum_even_odd {M : Type*} [AddCommMonoid M] (f : Fin 4096 → M) :
    ∑ k : Fin 4096, f k = ∑ i : Fin 2048, f (evenCol i) + ∑ i : Fin 2048, f (oddCol i) := by
  rw [← Equiv.sum_comp colEquiv f, Fintype.sum_prod_type, ← Finset.sum_add_distrib]
  refine Finset.sum_congr rfl fun i _ => ?_
  rw [Fin.sum_univ_two, colEquiv_zero, colEquiv_one]

end Cert.NibbleLinear

end
-- ==== Proof.RefValue.lean ====
/-
  The reference computes `linear`.

  The reference unpacks every word into the pair (high field, low field), flattens the pairs so that flat position
  `2w` holds word `w`'s high field and `2w + 1` its low field, cuts the flat array into groups of 128, scales and
  shifts each group, and reshapes to `W : [12288, 4096]`; the result is `x · Wᵀ + bias`. Read at an entry: flat position
  `o·4096 + c` is column `c` of row `o`, its group is `(o·4096 + c) / 128`, its word `(o·4096 + c) / 2` and its parity
  `c mod 2`. For `c = 2i` that is word `o·2048 + i`, high field, group `o·32 + i/64`; for `c = 2i + 1` the same word and
  group, low field. So `W[o, 2i] = weightEven o i` and `W[o, 2i+1] = weightOdd o i`, and the contraction over the 4096
  columns splits into its even and odd terms (`sum_even_odd`).
-/
import proofs.«428083_j67242007986735_3_alg».proof.Proof.Gen.ReferenceIdeal.Read
import proofs.«428083_j67242007986735_3_alg».proof.Proof.Spec

noncomputable section

namespace Cert.ReferenceIdeal.RefValue

open Cert.ReferenceIdeal Cert.ReferenceIdeal.Gen Cert.ReferenceIdeal.Read Cert.NibbleLinear
open Idealize.ShloMosaic Idealize.ShloMosaic.ValueIdx

/-- A shift by 4 is below the width, so the host's arithmetic shift and the vector unit's are the same word. -/
theorem shrsi_four (w : BitVec 32) : IntOp.shrsi .host w 4#32 = IntOp.shrsi .vector w 4#32 := by
  unfold IntOp.shrsi
  rw [if_pos (by decide), if_pos (by decide)]

/-- The pair array at (word, 0) is the word's high field. -/
theorem pair_high (x1 : (⟨S25165824, .i32⟩ : BufTy).Contents (Elt Ideal)) (w : Fin 25165824) :
    val_main_v8 (F := Ideal) x1 (ix2 w (0 : Fin 2)) = IntOp.andi (IntOp.shrsi .vector (x1 (ix1 w)) 4#32) 15#32 := by
  unfold val_main_v8
  rw [concatenate_pair_apply_left (1 : Fin S25165824x2.rank) _ _ concatenates_S25165824x1_S25165824x1_S25165824x2_d1
    (ix2 w (0 : Fin 2)) rfl (ix2 w (0 : Fin 1)) (fun b => match b with | ⟨0, _⟩ => rfl | ⟨1, _⟩ => rfl)]
  rw [val_main_v6_apply, val_main_v3_apply, val_main_v1_apply, val_main_v0_apply, val_main_c_apply, val_main_v2_apply,
    val_main_c_0_apply, shrsi_four]
  have e : idx_main_v6 (ix2 w (0 : Fin 1)) = ix1 w := funext fun a => match a with | ⟨0, _⟩ => rfl
  rw [e]

/-- The pair array at (word, 1) is the word's low field. -/
theorem pair_low (x1 : (⟨S25165824, .i32⟩ : BufTy).Contents (Elt Ideal)) (w : Fin 25165824) :
    val_main_v8 (F := Ideal) x1 (ix2 w (1 : Fin 2)) = IntOp.andi (x1 (ix1 w)) 15#32 := by
  unfold val_main_v8
  rw [concatenate_pair_apply_right (1 : Fin S25165824x2.rank) _ _ concatenates_S25165824x1_S25165824x1_S25165824x2_d1
    (ix2 w (1 : Fin 2)) rfl rfl (ix2 w (0 : Fin 1))
    (fun b hb => match b, hb with | ⟨0, _⟩, _ => rfl | ⟨1, _⟩, hb => absurd rfl hb) rfl]
  rw [val_main_v7_apply, val_main_v5_apply, val_main_v4_apply, val_main_c_1_apply]
  have e : idx_main_v7 (ix2 w (0 : Fin 1)) = ix1 w := funext fun a => match a with | ⟨0, _⟩ => rfl
  rw [e]

/-- Column `2i` of weight row `o`, through the reference's stages: word `o·2048 + i`, high field, group `o·32 + i/64`. -/
theorem weight_even (x1 : (⟨S25165824, .i32⟩ : BufTy).Contents (Elt Ideal)) (x2 x3 : (⟨S393216, .f32⟩ : BufTy).Contents (Elt Ideal))
    (o : Fin 12288) (i : Fin 2048) :
    val_main_v19 (F := Ideal) x1 x2 x3 (ix2 (evenCol i) o) = weightEven x1 x2 x3 o i := by
  have ho := o.isLt; have hi := i.isLt
  rw [val_main_v19_apply, val_main_v18_apply, val_main_v17_apply, val_main_v14_apply, val_main_v11_apply, val_main_v10_apply,
    val_main_v9_apply, val_main_v13_apply, val_main_v12_apply, val_main_v16_apply, val_main_v15_apply]
  have ew : idx_main_v9 (idx_main_v10 (idx_main_v18 (idx_main_v19 (ix2 (evenCol i) o)))) = ix2 (wordAt o i) (0 : Fin 2) :=
    funext fun a => Fin.ext (by
      match a with
      | ⟨0, _⟩ => show ((o.val * 4096 + 2 * i.val) / 128 * 128 + (o.val * 4096 + 2 * i.val) % 128) / 2 = o.val * 2048 + i.val; omega
      | ⟨1, _⟩ => show ((o.val * 4096 + 2 * i.val) / 128 * 128 + (o.val * 4096 + 2 * i.val) % 128) % 2 = 0; omega)
  have es : idx_main_v12 (idx_main_v13 (idx_main_v18 (idx_main_v19 (ix2 (evenCol i) o)))) = ix1 (groupAt o i) :=
    funext fun a => Fin.ext (by
      match a with
      | ⟨0, _⟩ => show (o.val * 4096 + 2 * i.val) / 128 = o.val * 32 + i.val / 64; omega)
  have ez : idx_main_v15 (idx_main_v16 (idx_main_v18 (idx_main_v19 (ix2 (evenCol i) o)))) = ix1 (groupAt o i) :=
    funext fun a => Fin.ext (by
      match a with
      | ⟨0, _⟩ => show (o.val * 4096 + 2 * i.val) / 128 = o.val * 32 + i.val / 64; omega)
  rw [ew, es, ez, pair_high]
  rfl

/-- Column `2i + 1` of weight row `o`: the same word and group, low field. -/
theorem weight_odd (x1 : (⟨S25165824, .i32⟩ : BufTy).Contents (Elt Ideal)) (x2 x3 : (⟨S393216, .f32⟩ : BufTy).Contents (Elt Ideal))
    (o : Fin 12288) (i : Fin 2048) :
    val_main_v19 (F := Ideal) x1 x2 x3 (ix2 (oddCol i) o) = weightOdd x1 x2 x3 o i := by
  have ho := o.isLt; have hi := i.isLt
  rw [val_main_v19_apply, val_main_v18_apply, val_main_v17_apply, val_main_v14_apply, val_main_v11_apply, val_main_v10_apply,
    val_main_v9_apply, val_main_v13_apply, val_main_v12_apply, val_main_v16_apply, val_main_v15_apply]
  have ew : idx_main_v9 (idx_main_v10 (idx_main_v18 (idx_main_v19 (ix2 (oddCol i) o)))) = ix2 (wordAt o i) (1 : Fin 2) :=
    funext fun a => Fin.ext (by
      match a with
      | ⟨0, _⟩ => show ((o.val * 4096 + (2 * i.val + 1)) / 128 * 128 + (o.val * 4096 + (2 * i.val + 1)) % 128) / 2 = o.val * 2048 + i.val; omega
      | ⟨1, _⟩ => show ((o.val * 4096 + (2 * i.val + 1)) / 128 * 128 + (o.val * 4096 + (2 * i.val + 1)) % 128) % 2 = 1; omega)
  have es : idx_main_v12 (idx_main_v13 (idx_main_v18 (idx_main_v19 (ix2 (oddCol i) o)))) = ix1 (groupAt o i) :=
    funext fun a => Fin.ext (by
      match a with
      | ⟨0, _⟩ => show (o.val * 4096 + (2 * i.val + 1)) / 128 = o.val * 32 + i.val / 64; omega)
  have ez : idx_main_v15 (idx_main_v16 (idx_main_v18 (idx_main_v19 (ix2 (oddCol i) o)))) = ix1 (groupAt o i) :=
    funext fun a => Fin.ext (by
      match a with
      | ⟨0, _⟩ => show (o.val * 4096 + (2 * i.val + 1)) / 128 = o.val * 32 + i.val / 64; omega)
  rw [ew, es, ez, pair_low]
  rfl

/-- THE REFERENCE'S RESULT is `linear` of its arguments: the contraction over the 4096 columns, split by parity, with
    each weight entry read as above; the bias row broadcast down the tokens. -/
theorem result_eq (x0 : (⟨S2048x4096, .f32⟩ : BufTy).Contents (Elt Ideal)) (x1 : (⟨S25165824, .i32⟩ : BufTy).Contents (Elt Ideal))
    (x2 x3 : (⟨S393216, .f32⟩ : BufTy).Contents (Elt Ideal)) (x4 : (⟨S12288, .f32⟩ : BufTy).Contents (Elt Ideal)) :
    val_main_v23 (F := Ideal) x0 x1 x2 x3 x4 = linear x0 x1 x2 x3 x4 := by
  funext j
  obtain ⟨t, o, rfl⟩ : ∃ (t : Fin 2048) (o : Fin 12288), j = ix2 t o := ⟨j 0, j 1, eq_ix2 j⟩
  rw [linear_apply, val_main_v23_apply, val_main_v20_apply, val_main_v22_apply, val_main_v21_apply, sum_even_odd, Ideal.addf_def]
  have el0 : ∀ i, lidx_main_v20 (ix2 t o) (evenCol i) = ix2 t (evenCol i) := fun i =>
    funext fun a => match a with | ⟨0, _⟩ => rfl | ⟨1, _⟩ => rfl
  have el1 : ∀ i, lidx_main_v20 (ix2 t o) (oddCol i) = ix2 t (oddCol i) := fun i =>
    funext fun a => match a with | ⟨0, _⟩ => rfl | ⟨1, _⟩ => rfl
  have er0 : ∀ i, ridx_main_v20 (ix2 t o) (evenCol i) = ix2 (evenCol i) o := fun i =>
    funext fun a => match a with | ⟨0, _⟩ => rfl | ⟨1, _⟩ => rfl
  have er1 : ∀ i, ridx_main_v20 (ix2 t o) (oddCol i) = ix2 (oddCol i) o := fun i =>
    funext fun a => match a with | ⟨0, _⟩ => rfl | ⟨1, _⟩ => rfl
  have eb : idx_main_v21 (idx_main_v22 (ix2 t o)) = ix1 o := funext fun a => match a with | ⟨0, _⟩ => rfl
  unfold linearAt
  refine congrArg₂ (· + ·) (congrArg₂ (· + ·) (Finset.sum_congr rfl fun i _ => ?_) (Finset.sum_congr rfl fun i _ => ?_)) ?_
  · rw [el0 i, er0 i, weight_even]
  · rw [el1 i, er1 i, weight_odd]
  · rw [eb]

end Cert.ReferenceIdeal.RefValue

end
-- ==== Proof.Entry.lean ====
/-
  What the kernel's region finds in the arrays it stages, in terms of the five arguments.

  Before the call the program re-lays its arguments (at the ideal instance a change of float format is the identity):
  * `x` is viewed as [2048, 2048, 2] and cut into its two planes: the even plane holds `x[t, 2i]` at (t, i), the odd
    plane `x[t, 2i+1]`;
  * the packed words are viewed as [12288, 2048]: entry (o, i) is word `o·2048 + i`;
  * scales and zeros are viewed as [12288, 32], each entry repeated 64 times along a new last axis, and flattened to
    [12288, 2048]: entry (o, i) is the parameter of group `o·32 + i/64`;
  * the bias is viewed as one row [1, 12288].
  Each lemma names the array as that composition of layout operations (the host operations read back) and then reads
  it at an index, one layout operation at a time: a reshape keeps the row-major position, a slice adds its offset, a
  broadcast drops the new axis.
-/
import proofs.«428083_j67242007986735_3_alg».proof.Proof.Gen.KernelIdeal.Frame
import proofs.«428083_j67242007986735_3_alg».proof.Proof.Spec
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Cert.NibbleLinear
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The two planes of `x` -/

theorem evenPlane_term (c : Dev nD) :
    (V m c main_v13 : S2048x2048.Idx → EReal)
      = (shapeCast S2048x2048 (extractStridedSlice S2048x2048x1 ![0, 0, 0]
          (shapeCast S2048x2048x2 (truncf (F := Ideal) .bf16 (m ((c : Thread nD τ).loc main_arg0) : S2048x4096.Idx → EReal) bitsLt_bf16_f32) shapeCasts_S2048x4096_S2048x2048x2)
          slices_S2048x2048x2_S2048x2048x1_0_0_0) shapeCasts_S2048x2048x1_S2048x2048 : S2048x2048.Idx → EReal) := by
  dsimp only [V, hostOps0]; after_results; rfl

theorem oddPlane_term (c : Dev nD) :
    (V m c main_v15 : S2048x2048.Idx → EReal)
      = (shapeCast S2048x2048 (extractStridedSlice S2048x2048x1 ![0, 0, 1]
          (shapeCast S2048x2048x2 (truncf (F := Ideal) .bf16 (m ((c : Thread nD τ).loc main_arg0) : S2048x4096.Idx → EReal) bitsLt_bf16_f32) shapeCasts_S2048x4096_S2048x2048x2)
          slices_S2048x2048x2_S2048x2048x1_0_0_1) shapeCasts_S2048x2048x1_S2048x2048 : S2048x2048.Idx → EReal) := by
  dsimp only [V, hostOps0]; after_results; rfl

/-- The even plane at (t, i) is `x[t, 2i]`. -/
theorem evenPlane_apply (c : Dev nD) (t i : Fin 2048) :
    (V m c main_v13 : S2048x2048.Idx → EReal) (ix2 t i)
      = (m ((c : Thread nD τ).loc main_arg0) : S2048x4096.Idx → EReal) (ix2 t (evenCol i)) := by
  have ht := t.isLt; have hi := i.isLt
  refine (congrFun (evenPlane_term m c) (ix2 t i)).trans ?_
  refine (shapeCast_apply _ shapeCasts_S2048x2048x1_S2048x2048 (ix2 t i) (ix3 t i (0 : Fin 1)) (by
    rw [Shape.rowMajor_val_three, Shape.rowMajor_val_two]
    show (t.val * 2048 + i.val) * 1 + 0 = t.val * 2048 + i.val; omega)).trans ?_
  refine (extractStridedSlice_apply ![0, 0, 0] _ slices_S2048x2048x2_S2048x2048x1_0_0_0 (ix3 t i (0 : Fin 1)) (ix3 t i (0 : Fin 2))
    (fun a => match a with
      | ⟨0, _⟩ => by show t.val = 0 + t.val; omega
      | ⟨1, _⟩ => by show i.val = 0 + i.val; omega
      | ⟨2, _⟩ => by show 0 = 0 + 0; rfl)).trans ?_
  refine (shapeCast_apply _ shapeCasts_S2048x4096_S2048x2048x2 (ix3 t i (0 : Fin 2)) (ix2 t (evenCol i)) (by
    rw [Shape.rowMajor_val_three, Shape.rowMajor_val_two]
    show t.val * 4096 + 2 * i.val = (t.val * 2048 + i.val) * 2 + 0; omega)).trans ?_
  rfl

/-- The odd plane at (t, i) is `x[t, 2i+1]`. -/
theorem oddPlane_apply (c : Dev nD) (t i : Fin 2048) :
    (V m c main_v15 : S2048x2048.Idx → EReal) (ix2 t i)
      = (m ((c : Thread nD τ).loc main_arg0) : S2048x4096.Idx → EReal) (ix2 t (oddCol i)) := by
  have ht := t.isLt; have hi := i.isLt
  refine (congrFun (oddPlane_term m c) (ix2 t i)).trans ?_
  refine (shapeCast_apply _ shapeCasts_S2048x2048x1_S2048x2048 (ix2 t i) (ix3 t i (0 : Fin 1)) (by
    rw [Shape.rowMajor_val_three, Shape.rowMajor_val_two]
    show (t.val * 2048 + i.val) * 1 + 0 = t.val * 2048 + i.val; omega)).trans ?_
  refine (extractStridedSlice_apply ![0, 0, 1] _ slices_S2048x2048x2_S2048x2048x1_0_0_1 (ix3 t i (0 : Fin 1)) (ix3 t i (1 : Fin 2))
    (fun a => match a with
      | ⟨0, _⟩ => by show t.val = 0 + t.val; omega
      | ⟨1, _⟩ => by show i.val = 0 + i.val; omega
      | ⟨2, _⟩ => by show 1 = 1 + 0; rfl)).trans ?_
  refine (shapeCast_apply _ shapeCasts_S2048x4096_S2048x2048x2 (ix3 t i (1 : Fin 2)) (ix2 t (oddCol i)) (by
    rw [Shape.rowMajor_val_three, Shape.rowMajor_val_two]
    show t.val * 4096 + (2 * i.val + 1) = (t.val * 2048 + i.val) * 2 + 1; omega)).trans ?_
  rfl

/-! ## The packed words as rows -/

theorem words_term (c : Dev nD) :
    (V m c main_v0 : S12288x2048.Idx → BitVec 32)
      = shapeCast S12288x2048 (m ((c : Thread nD τ).loc main_arg1)) shapeCasts_S25165824_S12288x2048 := by
  dsimp only [V, hostOps0]; after_results; rfl

/-- Entry (o, i) of the word matrix is word `o·2048 + i`. -/
theorem words_apply (c : Dev nD) (o : Fin 12288) (i : Fin 2048) :
    (V m c main_v0 : S12288x2048.Idx → BitVec 32) (ix2 o i)
      = (m ((c : Thread nD τ).loc main_arg1) : S25165824.Idx → BitVec 32) (ix1 (wordAt o i)) := by
  refine (congrFun (words_term m c) (ix2 o i)).trans ?_
  exact shapeCast_apply _ shapeCasts_S25165824_S12288x2048 (ix2 o i) (ix1 (wordAt o i)) (by
    rw [Shape.rowMajor_val_one, Shape.rowMajor_val_two]; rfl)

/-! ## The group parameters spread over the columns -/

theorem scales_term (c : Dev nD) :
    (V m c main_v6 : S12288x2048.Idx → EReal)
      = (shapeCast S12288x2048 (broadcastInDim S12288x32x64 ![0, 1] bcast_S12288x32_S12288x32x64_0_1
          (shapeCast S12288x32 (m ((c : Thread nD τ).loc main_arg2) : S393216.Idx → EReal) shapeCasts_S393216_S12288x32))
          shapeCasts_S12288x32x64_S12288x2048 : S12288x2048.Idx → EReal) := by
  dsimp only [V, hostOps0]; after_results; rfl

theorem zeros_term (c : Dev nD) :
    (V m c main_v9 : S12288x2048.Idx → EReal)
      = (shapeCast S12288x2048 (broadcastInDim S12288x32x64 ![0, 1] bcast_S12288x32_S12288x32x64_0_1
          (shapeCast S12288x32 (m ((c : Thread nD τ).loc main_arg3) : S393216.Idx → EReal) shapeCasts_S393216_S12288x32))
          shapeCasts_S12288x32x64_S12288x2048 : S12288x2048.Idx → EReal) := by
  dsimp only [V, hostOps0]; after_results; rfl

/-- A per-group parameter array `q : [393216]`, viewed [12288, 32], repeated 64 times and flattened to [12288, 2048],
    read at (o, i): the parameter of group `o·32 + i/64`. -/
theorem spread_apply (q : S393216.Idx → EReal) (o : Fin 12288) (i : Fin 2048) :
    shapeCast S12288x2048 (broadcastInDim S12288x32x64 ![0, 1] bcast_S12288x32_S12288x32x64_0_1
        (shapeCast S12288x32 q shapeCasts_S393216_S12288x32)) shapeCasts_S12288x32x64_S12288x2048 (ix2 o i)
      = q (ix1 (groupAt o i)) := by
  have ho := o.isLt; have hi := i.isLt
  refine (shapeCast_apply _ shapeCasts_S12288x32x64_S12288x2048 (ix2 o i)
    (ix3 o (⟨i.val / 64, by omega⟩ : Fin 32) (⟨i.val % 64, by omega⟩ : Fin 64)) (by
      rw [Shape.rowMajor_val_three, Shape.rowMajor_val_two]
      show (o.val * 32 + i.val / 64) * 64 + i.val % 64 = o.val * 2048 + i.val; omega)).trans ?_
  refine (broadcastInDim_apply _ bcast_S12288x32_S12288x32x64_0_1 _ _ (ix2 o (⟨i.val / 64, by omega⟩ : Fin 32))
    (fun a => match a with
      | ⟨0, _⟩ => by show o.val = if (12288 : Nat) = 1 then 0 else o.val; rw [if_neg (by decide)]
      | ⟨1, _⟩ => by show i.val / 64 = if (32 : Nat) = 1 then 0 else i.val / 64; rw [if_neg (by decide)])).trans ?_
  exact shapeCast_apply _ shapeCasts_S393216_S12288x32 (ix2 o (⟨i.val / 64, by omega⟩ : Fin 32)) (ix1 (groupAt o i)) (by
    rw [Shape.rowMajor_val_one, Shape.rowMajor_val_two]; rfl)

theorem scales_apply (c : Dev nD) (o : Fin 12288) (i : Fin 2048) :
    (V m c main_v6 : S12288x2048.Idx → EReal) (ix2 o i)
      = (m ((c : Thread nD τ).loc main_arg2) : S393216.Idx → EReal) (ix1 (groupAt o i)) := by
  refine (congrFun (scales_term m c) (ix2 o i)).trans ?_
  exact spread_apply (m ((c : Thread nD τ).loc main_arg2) : S393216.Idx → EReal) o i

theorem zeros_apply (c : Dev nD) (o : Fin 12288) (i : Fin 2048) :
    (V m c main_v9 : S12288x2048.Idx → EReal) (ix2 o i)
      = (m ((c : Thread nD τ).loc main_arg3) : S393216.Idx → EReal) (ix1 (groupAt o i)) := by
  refine (congrFun (zeros_term m c) (ix2 o i)).trans ?_
  exact spread_apply (m ((c : Thread nD τ).loc main_arg3) : S393216.Idx → EReal) o i

/-! ## The bias as a row -/

theorem bias_term (c : Dev nD) :
    (V m c main_v3 : S1x12288.Idx → EReal)
      = shapeCast S1x12288 (m ((c : Thread nD τ).loc main_arg4)) shapeCasts_S12288_S1x12288 := by
  dsimp only [V, hostOps0]; after_results; rfl

theorem bias_apply (c : Dev nD) (o : Fin 12288) :
    (V m c main_v3 : S1x12288.Idx → EReal) (ix2 (0 : Fin 1) o)
      = (m ((c : Thread nD τ).loc main_arg4) : S12288.Idx → EReal) (ix1 o) := by
  refine (congrFun (bias_term m c) (ix2 (0 : Fin 1) o)).trans ?_
  exact shapeCast_apply _ shapeCasts_S12288_S1x12288 (ix2 (0 : Fin 1) o) (ix1 o) (by
    rw [Shape.rowMajor_val_one, Shape.rowMajor_val_two]
    show o.val = 0 * 12288 + o.val; omega)

end Cert.KernelIdeal.Entry

end
-- ==== Proof.Body.lean ====
/-
  The kernel body's arithmetic at one entry of its output block.

  At a grid point the body holds: a block of 256 rows of packed words `w`, the matching blocks of per-column scales
  `sc` and zeros `zr`, the two whole planes `xe`, `xo` of `x`, and 256 bias entries `bb`. It dequantizes both fields of every
  word, `hi(w)·sc + zr` and `lo(w)·sc + zr`, multiplies the even plane with the first and the odd plane with the second
  (each product contracting the 2048 words of a row, into a zero accumulator), adds the two products and the bias row.
  A matrix product into the zero accumulator, read at (t, r), is the plain sum over the contraction coordinate
  of left (t, i) times right (r, i): the right operand is contracted along its second axis.
-/
import proofs.«428083_j67242007986735_3_alg».proof.Proof.Gen.KernelIdeal.Skeleton
import proofs.«428083_j67242007986735_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Cert.NibbleLinear
open Idealize.ShloMosaic Idealize.ShloMosaic.ValueIdx

/-! ## The product's operand indices, axis by axis -/

theorem lhs_axis0 (j : S2048x256.Idx) (q : dot_S2048x2048_S256x2048_S2048x256_1_1_0_0_n_n.contr.Idx) :
    (dot_S2048x2048_S256x2048_S2048x256_1_1_0_0_n_n.lhsIdx j q 0).val = (j 0).val := by
  unfold DotDims.lhsIdx
  rw [dif_neg (show ¬(0 : Fin S2048x2048.rank) ∈ dot_S2048x2048_S256x2048_S2048x256_1_1_0_0_n_n.lhsBatch by decide), dif_pos (show (0 : Fin S2048x2048.rank) ∈ dot_S2048x2048_S256x2048_S2048x256_1_1_0_0_n_n.lhsNonContracting by decide)]
  rfl
theorem lhs_axis1 (j : S2048x256.Idx) (q : dot_S2048x2048_S256x2048_S2048x256_1_1_0_0_n_n.contr.Idx) :
    (dot_S2048x2048_S256x2048_S2048x256_1_1_0_0_n_n.lhsIdx j q 1).val = (q ⟨0, by decide⟩).val :=
  dot_S2048x2048_S256x2048_S2048x256_1_1_0_0_n_n.lhsIdx_val_of_single rfl j q
theorem rhs_axis0 (j : S2048x256.Idx) (q : dot_S2048x2048_S256x2048_S2048x256_1_1_0_0_n_n.contr.Idx) :
    (dot_S2048x2048_S256x2048_S2048x256_1_1_0_0_n_n.rhsIdx j q 0).val = (j 1).val := by
  unfold DotDims.rhsIdx
  rw [dif_neg (show ¬(0 : Fin S256x2048.rank) ∈ dot_S2048x2048_S256x2048_S2048x256_1_1_0_0_n_n.rhsBatch by decide), dif_pos (show (0 : Fin S256x2048.rank) ∈ dot_S2048x2048_S256x2048_S2048x256_1_1_0_0_n_n.rhsNonContracting by decide)]
  rfl
theorem rhs_axis1 (j : S2048x256.Idx) (q : dot_S2048x2048_S256x2048_S2048x256_1_1_0_0_n_n.contr.Idx) :
    (dot_S2048x2048_S256x2048_S2048x256_1_1_0_0_n_n.rhsIdx j q 1).val = (q ⟨0, by decide⟩).val :=
  dot_S2048x2048_S256x2048_S2048x256_1_1_0_0_n_n.rhsIdx_val_of_single rfl j q

/-- `A · Bᵀ` into the zero accumulator, at (t, r): the sum over the row's words of `A[t, i] · B[r, i]`. -/
theorem product_apply (A : FVec Ideal S2048x2048 .bf16) (B : FVec Ideal S256x2048 .bf16) (t : Fin 2048) (r : Fin 256) :
    matmul dot_S2048x2048_S256x2048_S2048x256_1_1_0_0_n_n none A B (constant (F := Ideal) S2048x256 .f32 0x00000000#32) (ix2 t r)
      = ∑ i : Fin 2048, A (ix2 t i) * B (ix2 r i) := by
  simp only [matmul]
  rw [Ideal.matmul_constant_zero_apply, ← Equiv.sum_comp (contrEquiv1 dot_S2048x2048_S256x2048_S2048x256_1_1_0_0_n_n 2048 rfl rfl).symm]
  refine Finset.sum_congr rfl fun k _ => ?_
  have hk := contrEquiv1_symm_val dot_S2048x2048_S256x2048_S2048x256_1_1_0_0_n_n 2048 rfl rfl k
  have el : dot_S2048x2048_S256x2048_S2048x256_1_1_0_0_n_n.lhsIdx (ix2 t r) ((contrEquiv1 dot_S2048x2048_S256x2048_S2048x256_1_1_0_0_n_n 2048 rfl rfl).symm k) = ix2 t k := funext fun a => Fin.ext (by
    match a with
    | ⟨0, _⟩ => exact lhs_axis0 _ _
    | ⟨1, _⟩ => exact (lhs_axis1 _ _).trans hk)
  have er : dot_S2048x2048_S256x2048_S2048x256_1_1_0_0_n_n.rhsIdx (ix2 t r) ((contrEquiv1 dot_S2048x2048_S256x2048_S2048x256_1_1_0_0_n_n 2048 rfl rfl).symm k) = ix2 r k := funext fun a => Fin.ext (by
    match a with
    | ⟨0, _⟩ => exact rhs_axis0 _ _
    | ⟨1, _⟩ => exact (rhs_axis1 _ _).trans hk)
  rw [el, er]

/-- THE BODY'S STORED VALUE at (t, r) of its block, from the loaded blocks: the two dequantize-and-contract sums and the
    bias entry of row `r`. -/
theorem stored_apply (w : Vec Ideal S256x2048 .i32) (sc zr : Vec Ideal S256x2048 .bf16) (xe xo : Vec Ideal S2048x2048 .bf16)
    (bb : Vec Ideal S1x256 .f32) (t : Fin 2048) (r : Fin 256) :
    k0_pay1 (F := Ideal) w sc zr xe xo bb (ix2 t r)
      = (∑ i : Fin 2048, xe (ix2 t i) * (hiField (w (ix2 r i)) * sc (ix2 r i) + zr (ix2 r i))
          + ∑ i : Fin 2048, xo (ix2 t i) * (loField (w (ix2 r i)) * sc (ix2 r i) + zr (ix2 r i)))
        + bb (ix2 (0 : Fin 1) r) := by
  unfold k0_pay1
  simp only [shapeCast_self]
  rw [addf_apply, addf_apply, product_apply, product_apply]
  refine congrArg₂ (· + ·) (congrArg₂ (· + ·) (Finset.sum_congr rfl fun i _ => ?_) (Finset.sum_congr rfl fun i _ => ?_)) ?_
  · rfl
  · rfl
  · exact broadcastTo_1b_ab_apply bb broadcasts_S1x256_S2048x256 t r

end Cert.KernelIdeal.Body

end
-- ==== Proof.Whole.lean ====
/-
  From the blocks to the whole result array.

  The grid has 48 points; point `n` works on output channels `256n … 256n + 255`: it stages rows `256n …` of the word,
  scale and zero matrices, bias entries `256n …`, and both whole planes of `x` (their block index never moves), and
  writes back columns `256n …` of the [2048, 12288] result. So entry (t, r) of point `n`'s block is entry
  (t, 256n + r) of the array, the rows it reads are rows `256n + r` of the staged matrices, and with the staged
  arrays read back to the arguments the body's stored value there is `linearAt t (256n + r)`. The 48 column strips
  cover the array (column `o` lies in strip `o / 256`), so the array ends holding `linear` of the arguments.
-/
import proofs.«428083_j67242007986735_3_alg».proof.Proof.Gen.KernelIdeal.Value
import proofs.«428083_j67242007986735_3_alg».proof.Proof.Spec
import proofs.«428083_j67242007986735_3_alg».proof.Proof.Entry
import proofs.«428083_j67242007986735_3_alg».proof.Proof.Body
import Idealize.ShloMosaic.Lib.Pipeline.Value

noncomputable section

namespace Cert.KernelIdeal.Whole

open Cert.KernelIdeal Cert.KernelIdeal.Gen Cert.KernelIdeal.Entry Cert.KernelIdeal.Body Cert.NibbleLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer of the five arguments as launched on core `c`. -/
abbrev result (c : Dev nD) : S2048x12288.Idx → EReal :=
  linear (m ((c : Thread nD τ).loc main_arg0)) (m ((c : Thread nD τ).loc main_arg1)) (m ((c : Thread nD τ).loc main_arg2))
    (m ((c : Thread nD τ).loc main_arg3)) (m ((c : Thread nD τ).loc main_arg4))

/-! ## The block index of every window at every point -/

theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ## The input blocks at a point, by their literal types -/

abbrev evenBlk (c : Dev nD) (t : Fin cfg0.N) : Vec Ideal S2048x2048 .bf16 := iblk m c 0 t
abbrev oddBlk (c : Dev nD) (t : Fin cfg0.N) : Vec Ideal S2048x2048 .bf16 := iblk m c 1 t
abbrev wordBlk (c : Dev nD) (t : Fin cfg0.N) : Vec Ideal S256x2048 .i32 := iblk m c 2 t
abbrev scaleBlk (c : Dev nD) (t : Fin cfg0.N) : Vec Ideal S256x2048 .bf16 := iblk m c 3 t
abbrev zeroBlk (c : Dev nD) (t : Fin cfg0.N) : Vec Ideal S256x2048 .bf16 := iblk m c 4 t
abbrev biasBlk (c : Dev nD) (t : Fin cfg0.N) : Vec Ideal S1x256 .f32 := iblk m c 5 t

/-- The even plane's block is the whole plane at every point. -/
theorem evenBlk_apply (c : Dev nD) (t : Fin cfg0.N) (tok i : Fin 2048) :
    evenBlk m c t (ix2 tok i) = (m ((c : Thread nD τ).loc main_arg0) : S2048x4096.Idx → EReal) (ix2 tok (evenCol i)) := by
  obtain ⟨e00, e01, -⟩ := block_index t
  refine Eq.trans ?_ (evenPlane_apply m c tok i)
  show V m c main_v13 (((cfg0.win 0).blk t).view.emb (ix2 tok i)) = V m c main_v13 (ix2 tok i)
  refine congrArg _ (funext fun a => Fin.ext ?_)
  match a with
  | ⟨0, _⟩ => show win0_0.index t (0 : Fin 2) * 2048 + 1 * tok.val = tok.val; omega
  | ⟨1, _⟩ => show win0_0.index t (1 : Fin 2) * 2048 + 1 * i.val = i.val; omega

/-- The odd plane's block is the whole plane at every point. -/
theorem oddBlk_apply (c : Dev nD) (t : Fin cfg0.N) (tok i : Fin 2048) :
    oddBlk m c t (ix2 tok i) = (m ((c : Thread nD τ).loc main_arg0) : S2048x4096.Idx → EReal) (ix2 tok (oddCol i)) := by
  obtain ⟨-, -, e10, e11, -⟩ := block_index t
  refine Eq.trans ?_ (oddPlane_apply m c tok i)
  show V m c main_v15 (((cfg0.win 1).blk t).view.emb (ix2 tok i)) = V m c main_v15 (ix2 tok i)
  refine congrArg _ (funext fun a => Fin.ext ?_)
  match a with
  | ⟨0, _⟩ => show win0_1.index t (0 : Fin 2) * 2048 + 1 * tok.val = tok.val; omega
  | ⟨1, _⟩ => show win0_1.index t (1 : Fin 2) * 2048 + 1 * i.val = i.val; omega

/-- Row `r` of the word block at point `t` is row `256t + r` of the word matrix. -/
theorem wordBlk_apply (c : Dev nD) (t : Fin cfg0.N) (r : Fin 256) (i : Fin 2048) (o : Fin 12288) (ho : o.val = 256 * t.val + r.val) :
    wordBlk m c t (ix2 r i) = (m ((c : Thread nD τ).loc main_arg1) : S25165824.Idx → BitVec 32) (ix1 (wordAt o i)) := by
  obtain ⟨-, -, -, -, e20, e21, -⟩ := block_index t
  refine Eq.trans ?_ (words_apply m c o i)
  show V m c main_v0 (((cfg0.win 2).blk t).view.emb (ix2 r i)) = V m c main_v0 (ix2 o i)
  refine congrArg _ (funext fun a => Fin.ext ?_)
  match a with
  | ⟨0, _⟩ => show win0_2.index t (0 : Fin 2) * 256 + 1 * r.val = o.val; omega
  | ⟨1, _⟩ => show win0_2.index t (1 : Fin 2) * 2048 + 1 * i.val = i.val; omega

/-- Row `r` of the scale block at point `t`: the scales of row `256t + r`, per column's group. -/
theorem scaleBlk_apply (c : Dev nD) (t : Fin cfg0.N) (r : Fin 256) (i : Fin 2048) (o : Fin 12288) (ho : o.val = 256 * t.val + r.val) :
    scaleBlk m c t (ix2 r i) = (m ((c : Thread nD τ).loc main_arg2) : S393216.Idx → EReal) (ix1 (groupAt o i)) := by
  obtain ⟨-, -, -, -, -, -, e30, e31, -⟩ := block_index t
  refine Eq.trans ?_ (scales_apply m c o i)
  show V m c main_v6 (((cfg0.win 3).blk t).view.emb (ix2 r i)) = V m c main_v6 (ix2 o i)
  refine congrArg _ (funext fun a => Fin.ext ?_)
  match a with
  | ⟨0, _⟩ => show win0_3.index t (0 : Fin 2) * 256 + 1 * r.val = o.val; omega
  | ⟨1, _⟩ => show win0_3.index t (1 : Fin 2) * 2048 + 1 * i.val = i.val; omega

/-- Row `r` of the zero block at point `t`: the zeros of row `256t + r`, per column's group. -/
theorem zeroBlk_apply (c : Dev nD) (t : Fin cfg0.N) (r : Fin 256) (i : Fin 2048) (o : Fin 12288) (ho : o.val = 256 * t.val + r.val) :
    zeroBlk m c t (ix2 r i) = (m ((c : Thread nD τ).loc main_arg3) : S393216.Idx → EReal) (ix1 (groupAt o i)) := by
  obtain ⟨-, -, -, -, -, -, -, -, e40, e41, -⟩ := block_index t
  refine Eq.trans ?_ (zeros_apply m c o i)
  show V m c main_v9 (((cfg0.win 4).blk t).view.emb (ix2 r i)) = V m c main_v9 (ix2 o i)
  refine congrArg _ (funext fun a => Fin.ext ?_)
  match a with
  | ⟨0, _⟩ => show win0_4.index t (0 : Fin 2) * 256 + 1 * r.val = o.val; omega
  | ⟨1, _⟩ => show win0_4.index t (1 : Fin 2) * 2048 + 1 * i.val = i.val; omega

/-- Entry `r` of the bias block at point `t` is bias entry `256t + r`. -/
theorem biasBlk_apply (c : Dev nD) (t : Fin cfg0.N) (r : Fin 256) (o : Fin 12288) (ho : o.val = 256 * t.val + r.val) :
    biasBlk m c t (ix2 (0 : Fin 1) r) = (m ((c : Thread nD τ).loc main_arg4) : S12288.Idx → EReal) (ix1 o) := by
  obtain ⟨-, -, -, -, -, -, -, -, -, -, e50, e51, -⟩ := block_index t
  refine Eq.trans ?_ (bias_apply m c o)
  show V m c main_v3 (((cfg0.win 5).blk t).view.emb (ix2 (0 : Fin 1) r)) = V m c main_v3 (ix2 (0 : Fin 1) o)
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * r.val = o.val; omega

/-! ## What a point writes back is its strip of `linear` -/

theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S256x2048) hz, View.ld_unit_zero (S := S2048x2048) hz, View.ld_unit_zero (S := S1x256) hz]
  obtain ⟨-, -, -, -, -, -, -, -, -, -, -, -, e60, e61⟩ := block_index t
  have hN : cfg0.N = 48 := N_0
  have htN : t.val < 48 := hN ▸ t.isLt
  funext y
  obtain ⟨tok, r, rfl⟩ : ∃ (tok : Fin 2048) (r : Fin 256), y = ix2 tok r := ⟨y 0, y 1, eq_ix2 y⟩
  have hr := r.isLt
  let o : Fin 12288 := ⟨256 * t.val + r.val, by omega⟩
  have ho : o.val = 256 * t.val + r.val := rfl
  have hemb : ((cfg0.win 6).blk t).view.emb (ix2 tok r) = ix2 tok o := funext fun a => Fin.ext (by
    match a with
    | ⟨0, _⟩ => show win0_6.index t (0 : Fin 2) * 2048 + 1 * tok.val = tok.val; omega
    | ⟨1, _⟩ => show win0_6.index t (1 : Fin 2) * 256 + 1 * r.val = 256 * t.val + r.val; omega)
  show k0_pay1 (F := Ideal) (wordBlk m c t) (scaleBlk m c t) (zeroBlk m c t) (evenBlk m c t) (oddBlk m c t) (biasBlk m c t) (ix2 tok r)
    = result m c (((cfg0.win 6).blk t).view.emb (ix2 tok r))
  rw [hemb]
  refine (stored_apply (wordBlk m c t) (scaleBlk m c t) (zeroBlk m c t) (evenBlk m c t) (oddBlk m c t) (biasBlk m c t) tok r).trans ?_
  show _ = linearAt (m ((c : Thread nD τ).loc main_arg0)) (m ((c : Thread nD τ).loc main_arg1)) (m ((c : Thread nD τ).loc main_arg2))
    (m ((c : Thread nD τ).loc main_arg3)) (m ((c : Thread nD τ).loc main_arg4)) tok o
  unfold linearAt
  refine congrArg₂ (· + ·) (congrArg₂ (· + ·) (Finset.sum_congr rfl fun i _ => ?_) (Finset.sum_congr rfl fun i _ => ?_)) ?_
  · rw [evenBlk_apply, wordBlk_apply m c t r i o ho, scaleBlk_apply m c t r i o ho, zeroBlk_apply m c t r i o ho]; rfl
  · rw [oddBlk_apply, wordBlk_apply m c t r i o ho, scaleBlk_apply m c t r i o ho, zeroBlk_apply m c t r i o ho]; rfl
  · exact biasBlk_apply m c t r o ho

/-! ## The strips cover the array -/

theorem mem_blk (t : Fin cfg0.N) (i : S2048x12288.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v16).slice (win0_6.rect t)).set ↔ _
  rw [View.set_slice_whole, Rect.mem_set_unit]
  exact Iff.rfl

theorem cover (i : S2048x12288.Idx) : ∃ t : Fin cfg0.N, (cfg0.win 6).flush t = true ∧ i ∈ ((cfg0.win 6).blk t).view.set := by
  have h0 : (i 0).val < 2048 := (i 0).isLt
  have h1 : (i 1).val < 12288 := (i 1).isLt
  have hN : cfg0.N = 48 := N_0
  let t : Fin cfg0.N := ⟨(i 1).val / 256, by rw [hN]; omega⟩
  have ht : t.val = (i 1).val / 256 := rfl
  obtain ⟨-, -, -, -, -, -, -, -, -, -, -, -, e60, e61⟩ := block_index t
  refine ⟨t, flush0_6 t, ?_⟩
  rw [mem_blk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

/-- THE RESULT ARRAY after the run is `linear` of the arguments. -/
theorem final (c : Dev nD) : (dats m 0 c).arrAt 6 cfg0.N = result m c :=
  (dats m 0 c).arrAt_eq_of_cover 6 (result m c) (fun t _ => flushed_eq m c t) cover

/-- The kernel's run: it terminates with the result array at `linear` of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.lean ====
/-
  The kernel and the reference compute one function: a linear layer whose weights are stored as 4-bit fields, two to a
  word, dequantized group by group (`Proof/Spec.lean`: `linear`).

  * The reference unpacks the words into one weight matrix and contracts over all 4096 columns (`Proof/RefValue.lean`).
  * The kernel never interleaves the two fields: it multiplies the even columns of `x` with the dequantized high fields
    and the odd columns with the dequantized low fields, 256 output channels per grid point, and adds the bias
    (`Proof/Entry.lean`: the staged arrays in terms of the arguments; `Proof/Body.lean`: the body's arithmetic at an
    entry; `Proof/Whole.lean`: the 48 column strips assembled into the whole array).
  The two agree because a sum over the columns is the sum of its even terms plus the sum of its odd terms, which holds
  for any finite sum of extended reals (addition is commutative and associative; no finiteness is used).
  The frames of the two kernel programs are the generated ones; the reference's frame is its generated run with the
  result dropped; the idealization rewrote nothing, so `preserves` has nothing to state.
-/
import proofs.«428083_j67242007986735_3_alg».proof.Defs
import proofs.«428083_j67242007986735_3_alg».proof.Proof.Gen.Kernel
import proofs.«428083_j67242007986735_3_alg».proof.Proof.Gen.Kernel.Skeleton
import proofs.«428083_j67242007986735_3_alg».proof.Proof.Gen.Kernel.Launch
import proofs.«428083_j67242007986735_3_alg».proof.Proof.Gen.Kernel.Points
import proofs.«428083_j67242007986735_3_alg».proof.Proof.Gen.Kernel.Frame
import proofs.«428083_j67242007986735_3_alg».proof.Proof.Gen.KernelIdeal
import proofs.«428083_j67242007986735_3_alg».proof.Proof.Gen.KernelIdeal.Skeleton
import proofs.«428083_j67242007986735_3_alg».proof.Proof.Gen.KernelIdeal.Launch
import proofs.«428083_j67242007986735_3_alg».proof.Proof.Gen.KernelIdeal.Points
import proofs.«428083_j67242007986735_3_alg».proof.Proof.Gen.KernelIdeal.Frame
import proofs.«428083_j67242007986735_3_alg».proof.Proof.Gen.ReferenceIdeal
import proofs.«428083_j67242007986735_3_alg».proof.Proof.Gen.Pre_finite_inputs
import proofs.«428083_j67242007986735_3_alg».proof.Proof.Gen.KernelIdeal.Value
import proofs.«428083_j67242007986735_3_alg».proof.Proof.Gen.ReferenceIdeal.Run
import proofs.«428083_j67242007986735_3_alg».proof.Proof.Gen.ReferenceIdeal.Read
import proofs.«428083_j67242007986735_3_alg».proof.Proof.RefValue
import proofs.«428083_j67242007986735_3_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `linear` of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
